-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩

class Facts : Prop where
  bcast_S_S16x2048x128 : S_.BroadcastsInDim S16x2048x128 (![] : Fin 0 → Fin S16x2048x128.rank)
  reducesTo_S16x2048x128_S_d0_1_2 : S16x2048x128.ReducesTo [0, 1, 2] S_
  h_S_ : 0 < S_.numel
  reducesTo_S16x2048x2048_S16x2048_d2 : S16x2048x2048.ReducesTo [2] S16x2048
  reducesTo_S16x2048_S_d0_1 : S16x2048.ReducesTo [0, 1] S_

variable [Facts]

def fn_part1 {F : FTy → Type} [FloatOps F] (main_v13 : IVec S_ 1) (main_v15 : IVec S16x2048 1) (main_c_5 : IVec S_ 1) : IVec S_ 1 :=
  let main_v16 : IVec S_ 1 := (fun x v => Host.reduce IntOp.andi x v reducesTo_S16x2048_S_d0_1 h_S_) main_v15 main_c_5
  let main_v17 : IVec S_ 1 := andi main_v13 main_v16
  main_v17

def fn {F : FTy → Type} [FloatOps F] (main_arg0 : FVec F S16x2048x128 .f32) (main_arg1 : FVec F S16x2048x128 .f32) (main_arg2 : FVec F S16x2048x128 .f32) (main_arg3 : IVec S16x2048x2048 1) : IVec S_ 1 :=
  let main_v0 : FVec F S16x2048x128 .f32 := Host.absf main_arg0
  let main_cst : FVec F S_ .f32 := constant S_ .f32 0x7F800000#32
  let main_v1 : FVec F S16x2048x128 .f32 := broadcastInDim S16x2048x128 ![] bcast_S_S16x2048x128 main_cst
  let main_v2 : IVec S16x2048x128 1 := cmpf .olt main_v0 main_v1
  let main_c : IVec S_ 1 := constantI S_ 1 1#1
  let main_v3 : IVec S_ 1 := (fun x v => Host.reduce IntOp.andi x v reducesTo_S16x2048x128_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_v14 : IVec S16x2048x2048 1 := noti main_arg3
  let main_c_4 : IVec S_ 1 := constantI S_ 1 0#1
  let main_v15 : IVec S16x2048 1 := (fun x v => Host.reduce IntOp.ori x v reducesTo_S16x2048x2048_S16x2048_d2 h_S_) main_v14 main_c_4
  let main_c_5 : IVec S_ 1 := constantI S_ 1 1#1
  fn_part1 (F := F) main_v13 main_v15 main_c_5
-- ==== Kernel.lean ====
abbrev S16x2048x128 : Shape := ⟨3, ![16, 2048, 128]⟩
abbrev S16x2048x2048 : Shape := ⟨3, ![16, 2048, 2048]⟩
abbrev S1x256x128 : Shape := ⟨3, ![1, 256, 128]⟩
abbrev S1x2048x128 : Shape := ⟨3, ![1, 2048, 128]⟩
abbrev S1x256x2048 : Shape := ⟨3, ![1, 256, 2048]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .i32⟩
  | .hbm, ⟨5, _⟩ => ⟨S16x2048x128, .f32⟩
  | .hbm, ⟨6, _⟩ => ⟨S16x2048x2048, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x256x2048, .i32⟩
  | .local _ .vmem, ⟨7, _⟩ => ⟨S1x256x2048, .i32⟩
  | .local _ .vmem, ⟨8, _⟩ => ⟨S1x256x128, .f32⟩
  | .local _ .vmem, ⟨9, _⟩ => ⟨S1x256x128, .f32⟩
  | .local _ .vmem, ⟨10, _⟩ => ⟨S1x256x2048, .f32⟩
  | .local _ .vmem, ⟨11, _⟩ => ⟨S1x256x2048, .f32⟩
  | _, _ => ⟨S16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x128_S1x256x128 : S256x128.ShapeCasts S1x256x128
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S16x2048x128.size a
  hwx0_0 : ∀ i : grid0.Coords, EltTy.bits .f32 = 32 ∨ (Rect.block (s := S16x2048x128) S1x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S16x2048x128.size a
  hwx0_1 : ∀ i : grid0.Coords, EltTy.bits .f32 = 32 ∨ (Rect.block (s := S16x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S16x2048x128.size a
  hwx0_2 : ∀ i : grid0.Coords, EltTy.bits .f32 = 32 ∨ (Rect.block (s := S16x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S16x2048x2048.size a
  hwx0_3 : ∀ i : grid0.Coords, EltTy.bits .i32 = 32 ∨ (Rect.block (s := S16x2048x2048) S1x256x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S16x2048x128.size a
  hwx0_4 : ∀ i : grid0.Coords, EltTy.bits .f32 = 32 ∨ (Rect.block (s := S16x2048x128) S1x256x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x2048x2048.size a
  hwx0_5 : ∀ i : grid0.Coords, EltTy.bits .f32 = 32 ∨ (Rect.block (s := S16x2048x2048) S1x256x2048.size (cc0_transform_5 i) (hinb0_5 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x256x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x128, .f32⟩
  | .hbm, ⟨1, _⟩ => ⟨S16x2048x128, .f32⟩
  | .hbm, ⟨2, _⟩ => ⟨S16x2048x128, .f32⟩
  | .hbm, ⟨3, _⟩ => ⟨S16x2048x2048, .i1⟩
  | .hbm, ⟨4, _⟩ => ⟨S16x2048x2048, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x128, .f32⟩
  | .hbm, ⟨24, _⟩ => ⟨S16x2048x128, .f32⟩
  | _, _ => ⟨S16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x128_S16x2048x128_S16x2048x2048_2_2_1_1_0_0_wf : DotDims.WF S16x2048x128 S16x2048x128 S16x2048x2048 [2] [2] [1] [1] [0] [0]
  dot_S16x2048x2048_S16x2048x128_S16x2048x128_2_1_1_2_0_0_wf : DotDims.WF S16x2048x2048 S16x2048x128 S16x2048x128 [2] [1] [1] [2] [0] [0]

variable [Facts₀]

def dot_S16x2048x128_S16x2048x128_S16x2048x2048_2_2_1_1_0_0 : DotDims S16x2048x128 S16x2048x128 S16x2048x2048 where
  lhsContracting := [2]
  rhsContracting := [2]
  lhsNonContracting := [1]
  rhsNonContracting := [1]
  lhsBatch := [0]
  rhsBatch := [0]
  wf := dot_S16x2048x128_S16x2048x128_S16x2048x2048_2_2_1_1_0_0_wf
def dot_S16x2048x2048_S16x2048x128_S16x2048x128_2_1_1_2_0_0 : DotDims S16x2048x2048 S16x2048x128 S16x2048x128 where
  lhsContracting := [2]
  rhsContracting := [1]
  lhsNonContracting := [1]
  rhsNonContracting := [2]
  lhsBatch := [0]
  rhsBatch := [0]
  wf := dot_S16x2048x2048_S16x2048x128_S16x2048x128_2_1_1_2_0_0_wf

class Facts : Prop extends Facts₀ where

variable [Facts]
-- ==== Proof.Softmax.lean ====
/-
  The arithmetic of one softmax row on the extended reals, free of any program.

  A row of masked scores is a family `s : Fin n → EReal` in which no entry is `⊤` (a score is a finite dot product or the
  fill `⊥`) and at least one entry is not `⊥` (the row has an unmasked key). Then the row maximum `m` is a real number,
  the unmasked entry contributes `exp (s j₀ - m) > 0` to the row sum, every other entry contributes `≥ 0`, and so the
  row sum `l` is not `0`. Off zero the quotient is the product with the inverse, hence
  `e · (1 / l) = e / l`: normalising by one reciprocal per row and a multiply is normalising by a divide.

  Also here: a finite sum of products of reals is a real, and a fold by `or` over bits that comes out `1` from `0`
  met a `1`.
-/
import Idealize.ShloMosaic.PureOps.Ideal
import Idealize.ShloMosaic.PureOps.Ideal.Laws
import Idealize.ShloMosaic.Lib.Affine

noncomputable section

namespace Cert.Softmax

open Idealize.ShloMosaic

/-- The exponential is nonnegative on all of `[-∞, +∞]`: `0` at `⊥`, `⊤` at `⊤`, `eʳ` at a real. -/
theorem exp_nonneg (x : EReal) : 0 ≤ Ideal.exp x := by
  induction x using EReal.rec with
  | bot => exact le_refl _
  | coe r => exact EReal.coe_nonneg.2 (Real.exp_pos r).le
  | top => exact le_top

/-- … and positive at a real. -/
theorem exp_coe_pos (r : ℝ) : 0 < Ideal.exp (r : EReal) := EReal.coe_pos.2 (Real.exp_pos r)

/-- A finite sum of reals, taken in the extended reals, is the real sum. -/
theorem coe_sum {ι : Type} (S : Finset ι) (f : ι → ℝ) : (∑ i ∈ S, ((f i : ℝ) : EReal)) = ((∑ i ∈ S, f i : ℝ) : EReal) := by
  classical
  induction S using Finset.induction_on with
  | empty => simp
  | insert a S ha ih => rw [Finset.sum_insert ha, Finset.sum_insert ha, ih, EReal.coe_add]

/-- A dot product of two real vectors is a real: neither `⊤` nor `⊥`. -/
theorem dot_coe {n : ℕ} (a b : Fin n → ℝ) :
    (∑ d : Fin n, ((a d : ℝ) : EReal) * ((b d : ℝ) : EReal)) = ((∑ d : Fin n, a d * b d : ℝ) : EReal) := by
  simp only [← EReal.coe_mul]
  exact coe_sum _ _

/-- The row sum of `exp (s j - max s)` is not zero when no score is `⊤` and some score is not `⊥`. -/
theorem rowsum_ne_zero {n : ℕ} (s : Fin n → EReal) (hlt : ∀ j, s j ≠ ⊤) (j₀ : Fin n) (h₀ : s j₀ ≠ ⊥) :
    (∑ j : Fin n, Ideal.exp (s j - Finset.univ.fold max (⊥ : EReal) s)) ≠ 0 := by
  have hle : s j₀ ≤ Finset.univ.fold max (⊥ : EReal) s :=
    (Finset.le_fold_max _).2 (Or.inr ⟨j₀, Finset.mem_univ _, le_refl _⟩)
  have hmtop : Finset.univ.fold max (⊥ : EReal) s ≠ ⊤ :=
    ne_of_lt ((Finset.fold_max_lt _).2 ⟨bot_lt_top, fun j _ => lt_top_iff_ne_top.2 (hlt j)⟩)
  have hmbot : Finset.univ.fold max (⊥ : EReal) s ≠ ⊥ := fun h => h₀ (le_bot_iff.1 (h ▸ hle))
  obtain ⟨mr, hmr⟩ : ∃ r : ℝ, Finset.univ.fold max (⊥ : EReal) s = (r : EReal) :=
    ⟨_, (EReal.coe_toReal hmtop hmbot).symm⟩
  obtain ⟨sr, hsr⟩ : ∃ r : ℝ, s j₀ = (r : EReal) := ⟨_, (EReal.coe_toReal (hlt j₀) h₀).symm⟩
  rw [hmr]
  have hpos : 0 < Ideal.exp (s j₀ - (mr : EReal)) := by
    rw [hsr, ← EReal.coe_sub]; exact exp_coe_pos _
  have hge : Ideal.exp (s j₀ - (mr : EReal)) ≤ ∑ j : Fin n, Ideal.exp (s j - (mr : EReal)) :=
    Finset.single_le_sum (f := fun j => Ideal.exp (s j - (mr : EReal))) (fun j _ => exp_nonneg _) (Finset.mem_univ j₀)
  exact ne_of_gt (lt_of_lt_of_le hpos hge)

/-- The maximum of a row, from `⊥`. -/
def rowMax {n : ℕ} (s : Fin n → EReal) : EReal := Finset.univ.fold max (⊥ : EReal) s
/-- An entry's weight: the exponential of its distance below the row maximum. -/
def rowExp {n : ℕ} (s : Fin n → EReal) (j : Fin n) : EReal := Ideal.exp (s j - rowMax s)
/-- The row's normaliser: the sum of the weights. -/
def rowSum {n : ℕ} (s : Fin n → EReal) : EReal := ∑ j : Fin n, rowExp s j
/-- The softmax of a row at an entry: its weight over the normaliser. -/
def rowProb {n : ℕ} (s : Fin n → EReal) (j : Fin n) : EReal := Ideal.div (rowExp s j) (rowSum s)

/-- Off zero, multiplying by the reciprocal is dividing. -/
theorem mul_div_one (e l : EReal) (hl : l ≠ 0) : e * Ideal.div 1 l = Ideal.div e l := by
  unfold Ideal.div
  rw [if_neg hl, if_neg hl, one_mul]

/-- On a row with no `⊤` and an entry above `⊥`, the weight times the reciprocal of the normaliser is the softmax. -/
theorem rowExp_mul_inv {n : ℕ} (s : Fin n → EReal) (hlt : ∀ j, s j ≠ ⊤) (j₀ : Fin n) (h₀ : s j₀ ≠ ⊥) (j : Fin n) :
    rowExp s j * Ideal.div 1 (rowSum s) = rowProb s j :=
  mul_div_one _ _ (rowsum_ne_zero s hlt j₀ h₀)

/-- A fold of bits by `or` from `0` that is `1` met a `1`. -/
theorem exists_of_fold_ori {ι : Type} [DecidableEq ι] (S : Finset ι) (f : ι → BitVec 1)
    (h : S.fold IntOp.ori 0#1 f = 1#1) : ∃ k ∈ S, f k = 1#1 := by
  induction S using Finset.induction_on with
  | empty => rw [Finset.fold_empty] at h; exact absurd h (by decide)
  | insert a S ha ih =>
    rw [Finset.fold_insert ha] at h
    rcases IntOp.ori_eq_one.1 h with hfa | hrest
    · exact ⟨a, Finset.mem_insert_self _ _, hfa⟩
    · obtain ⟨k, hk, hfk⟩ := ih hrest
      exact ⟨k, Finset.mem_insert_of_mem hk, hfk⟩

/-- The complement of a bit is `1` exactly when the bit is `0`. -/
theorem not_eq_one {b : BitVec 1} (h : ~~~b = 1#1) : b = 0#1 := by revert b; decide

end Cert.Softmax

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.Payload.lean ====
/-
  What the kernel's body computes at one grid point, read at an index of the block, on the extended reals.

  The point holds a query block `Q` ([1, 256, 128]), the head's whole key and value arrays `K`, `V` ([1, 2048, 128]) and
  a mask block `M` ([1, 256, 2048], words, nonzero = masked). Row `r` of the block has the masked scores
  `s r j = ⊥` where `M r j ≠ 0`, else `∑ d, Q r d · K j d` (the fill is the named constant, `⊥` at the ideal values).
  The probability block is `exp (s r j - max s r) · (1 / ∑ⱼ exp (s r j - max s r))`: the row's weight times ONE
  reciprocal per row; the output block is `(∑ j, P r j · V j d) · Q r d`.
-/
import proofs.«417432_j34437047779814_3_alg».proof.Proof.Gen.KernelIdeal.Skeleton
import proofs.«417432_j34437047779814_3_alg».proof.Proof.Softmax
import proofs.«417432_j34437047779814_3_alg».proof.Proof.LibPlainDot
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx Cert.Softmax

/-! ## The two literal words and the named fill -/

theorem ofBits_neg_inf : Ideal.ofBits .f32 0xFF800000#32 = ⊥ := by simp [Ideal.ofBits, Ideal.ieee]

/-- The mask fill: the finite word the kernel writes is named `⊥` by the certificate's table. -/
theorem fill_eq : Named.named (F := Ideal) κ "neg_big" (φ := .f32) 0xFF333332#32 = ⊥ :=
  IdealRules.named_const.ideal_named_scalar _ _ _ _ rfl

/-! ## The query–key product: `Q · Kᵀ`, contracting the head dimension of both -/

theorem lhs_qk_0 (i : S256x2048.Idx) (q : dot_S256x128_S2048x128_S256x2048_1_1_0_0_n_n.contr.Idx) :
    (dot_S256x128_S2048x128_S256x2048_1_1_0_0_n_n.lhsIdx i q 0).val = (i 0).val := by
  unfold DotDims.lhsIdx
  rw [dif_neg (show ¬(0 : Fin S256x128.rank) ∈ dot_S256x128_S2048x128_S256x2048_1_1_0_0_n_n.lhsBatch by decide), dif_pos (show (0 : Fin S256x128.rank) ∈ dot_S256x128_S2048x128_S256x2048_1_1_0_0_n_n.lhsNonContracting by decide)]
  rfl
theorem lhs_qk_1 (i : S256x2048.Idx) (q : dot_S256x128_S2048x128_S256x2048_1_1_0_0_n_n.contr.Idx) :
    (dot_S256x128_S2048x128_S256x2048_1_1_0_0_n_n.lhsIdx i q 1).val = (q ⟨0, by decide⟩).val :=
  dot_S256x128_S2048x128_S256x2048_1_1_0_0_n_n.lhsIdx_val_of_single rfl i q
theorem rhs_qk_0 (i : S256x2048.Idx) (q : dot_S256x128_S2048x128_S256x2048_1_1_0_0_n_n.contr.Idx) :
    (dot_S256x128_S2048x128_S256x2048_1_1_0_0_n_n.rhsIdx i q 0).val = (i 1).val := by
  unfold DotDims.rhsIdx
  rw [dif_neg (show ¬(0 : Fin S2048x128.rank) ∈ dot_S256x128_S2048x128_S256x2048_1_1_0_0_n_n.rhsBatch by decide), dif_pos (show (0 : Fin S2048x128.rank) ∈ dot_S256x128_S2048x128_S256x2048_1_1_0_0_n_n.rhsNonContracting by decide)]
  rfl
theorem rhs_qk_1 (i : S256x2048.Idx) (q : dot_S256x128_S2048x128_S256x2048_1_1_0_0_n_n.contr.Idx) :
    (dot_S256x128_S2048x128_S256x2048_1_1_0_0_n_n.rhsIdx i q 1).val = (q ⟨0, by decide⟩).val :=
  dot_S256x128_S2048x128_S256x2048_1_1_0_0_n_n.rhsIdx_val_of_single rfl i q

/-- Entry `(r, j)` of `A · Bᵀ` into the zero accumulator: the sum over the head dimension of `A r d · B j d`. -/
theorem qk_apply {φ₁ φ₂ : FTy} (A : FVec Ideal S256x128 φ₁) (B : FVec Ideal S2048x128 φ₂) (r : Fin 256) (j : Fin 2048) :
    matmul dot_S256x128_S2048x128_S256x2048_1_1_0_0_n_n none A B (constant (F := Ideal) S256x2048 .f32 0x00000000#32) (ix2 r j)
      = ∑ d : Fin 128, A (ix2 r d) * B (ix2 j d) := by
  show FloatOps.matmul _ none A B _ (ix2 r j) = _
  rw [Ideal.matmul_constant_zero_apply, ← Equiv.sum_comp (ValueIdx.contrEquiv1 dot_S256x128_S2048x128_S256x2048_1_1_0_0_n_n 128 rfl rfl).symm]
  refine Finset.sum_congr rfl fun k _ => ?_
  have hk := ValueIdx.contrEquiv1_symm_val dot_S256x128_S2048x128_S256x2048_1_1_0_0_n_n 128 rfl rfl k
  have el : dot_S256x128_S2048x128_S256x2048_1_1_0_0_n_n.lhsIdx (ix2 r j) ((ValueIdx.contrEquiv1 dot_S256x128_S2048x128_S256x2048_1_1_0_0_n_n 128 rfl rfl).symm k) = ix2 r k := funext fun a => Fin.ext (by
    match a with
    | ⟨0, _⟩ => exact lhs_qk_0 _ _
    | ⟨1, _⟩ => exact (lhs_qk_1 _ _).trans hk)
  have er : dot_S256x128_S2048x128_S256x2048_1_1_0_0_n_n.rhsIdx (ix2 r j) ((ValueIdx.contrEquiv1 dot_S256x128_S2048x128_S256x2048_1_1_0_0_n_n 128 rfl rfl).symm k) = ix2 j k := funext fun a => Fin.ext (by
    match a with
    | ⟨0, _⟩ => exact rhs_qk_0 _ _
    | ⟨1, _⟩ => exact (rhs_qk_1 _ _).trans hk)
  rw [el, er]

/-! ## A row's maximum and a row's reciprocal sum, each kept as a column and laid back over the row -/

/-- The column [256] → [256, 1] read at `(r, 0)`. -/
theorem col_apply {α : Type} (x : S256.Idx → α) (r : Fin 256) (z : Fin 1) :
    shapeCast S256x1 x shapeCasts_S256_S256x1 (ix2 r z) = x (ix1 r) :=
  shapeCast_apply x shapeCasts_S256_S256x1 (ix2 r z) (ix1 r) (by
    rw [Shape.rowMajor_val_two]
    have hz : z.val = 0 := by omega
    show (Shape.rowMajor S256 (ix1 r)).val = r.val * 1 + z.val
    rw [hz]
    simp [Shape.rowMajor_val_one])

/-- A column [256, 1] laid over [256, 2048] reads, at `(r, j)`, the column at `(r, 0)`. -/
theorem lay_apply {α : Type} (x : S256x1.Idx → α) (r : Fin 256) (j : Fin 2048) :
    broadcastTo S256x2048 x broadcasts_S256x1_S256x2048 (ix2 r j) = x (ix2 r 0) :=
  broadcastTo_apply x broadcasts_S256x1_S256x2048 (ix2 r j) (ix2 r 0) (fun a => by
    match a with
    | ⟨0, _⟩ => show r.val = if (256 : Nat) = 1 then 0 else r.val; rw [if_neg (by decide)]
    | ⟨1, _⟩ => show (0 : Nat) = if (1 : Nat) = 1 then 0 else j.val; rw [if_pos rfl])

/-- Row `r` of a [256, 2048] array, as the reduction's inserted index names it. -/
theorem lift_row (r : Fin 256) (k : Fin 2048) : reduces_S256x2048_S256.lift (ix1 r) k = ix2 r k :=
  funext fun a => Fin.ext (by match a with | ⟨0, _⟩ => rfl | ⟨1, _⟩ => rfl)

/-- The row maximum (from the `-∞` word), as a column, laid back over the row. -/
theorem rowmax_apply (X : FVec Ideal S256x2048 .f32) (r : Fin 256) (j : Fin 2048) :
    broadcastTo S256x2048 (shapeCast S256x1 (multiReduction .maximumf [1] S256 X 0xFF800000#32 reduces_S256x2048_S256 (.inl rfl) rfl) shapeCasts_S256_S256x1) broadcasts_S256x1_S256x2048 (ix2 r j)
      = rowMax (fun j' : Fin 2048 => X (ix2 r j')) := by
  rw [lay_apply, col_apply]
  refine (Ideal.multiReduction_maximumf_single X 0xFF800000#32 reduces_S256x2048_S256 (.inl rfl) rfl (ix1 r)).trans ?_
  show Finset.univ.fold max (Ideal.ofBits .f32 0xFF800000#32) (fun k : Fin 2048 => X (reduces_S256x2048_S256.lift (ix1 r) k)) = _
  simp only [lift_row, ofBits_neg_inf]
  rfl

/-- One over the row sum (from the zero word), as a column, laid back over the row. -/
theorem rowinv_apply (Y : FVec Ideal S256x2048 .f32) (r : Fin 256) (j : Fin 2048) :
    broadcastTo S256x2048 (divf (broadcast S256x1 (Scalar.ofBits (F := Ideal) .f32 0x3F800000#32)) (shapeCast S256x1 (multiReduction .add [1] S256 Y 0x00000000#32 reduces_S256x2048_S256 (.inl rfl) rfl) shapeCasts_S256_S256x1)) broadcasts_S256x1_S256x2048 (ix2 r j)
      = Ideal.div 1 (∑ j' : Fin 2048, Y (ix2 r j')) := by
  rw [lay_apply]
  show Ideal.div (Ideal.ofBits .f32 0x3F800000#32) (shapeCast S256x1 (multiReduction .add [1] S256 Y 0x00000000#32 reduces_S256x2048_S256 (.inl rfl) rfl) shapeCasts_S256_S256x1 (ix2 r 0)) = _
  rw [col_apply, Ideal.ofBits_one_f32]
  refine congrArg (Ideal.div 1) ?_
  refine (Ideal.multiReduction_add_single Y 0x00000000#32 reduces_S256x2048_S256 (.inl rfl) rfl (ix1 r)).trans ?_
  show (∑ k : Fin 2048, Y (reduces_S256x2048_S256.lift (ix1 r) k)) = _
  simp only [lift_row]

/-! ## The body's two results at an index -/

variable (Q : Vec Ideal S1x256x128 .f32) (K V : Vec Ideal S1x2048x128 .f32) (M : Vec Ideal S1x256x2048 .i32)

/-- The masked scores of block row `r`: the fill where the mask word is not zero, the dot product of query row `r` and
    key row `j` elsewhere. -/
def bsel (r : Fin 256) (j : Fin 2048) : EReal :=
  if M (ix3 0 r j) = 0#32 then ∑ d : Fin 128, Q (ix3 0 r d) * K (ix3 0 j d) else ⊥

/-- The selected scores as the body computes them. -/
abbrev scores : FVec Ideal S256x2048 .f32 :=
  select (cmpi .ne (shapeCast S256x2048 M shapeCasts_S1x256x2048_S256x2048) (constantI S256x2048 32 0#32))
    (broadcast S256x2048 (Named.named (F := Ideal) κ "neg_big" (φ := .f32) 0xFF333332#32))
    (matmul dot_S256x128_S2048x128_S256x2048_1_1_0_0_n_n none (truncf .bf16 (k0_pay2 Q) bitsLt_bf16_f32)
      (truncf .bf16 (shapeCast S2048x128 K shapeCasts_S1x2048x128_S2048x128) bitsLt_bf16_f32) (constant S256x2048 .f32 0x00000000#32))

/-- The weights: the exponential of each score's distance below its row's maximum. -/
abbrev wts : FVec Ideal S256x2048 .f32 :=
  exp (subf (scores Q K M) (broadcastTo S256x2048 (shapeCast S256x1 (multiReduction .maximumf [1] S256 (scores Q K M) 0xFF800000#32 reduces_S256x2048_S256 (.inl rfl) rfl) shapeCasts_S256_S256x1) broadcasts_S256x1_S256x2048))

/-- One over each row's sum of weights, laid over the row. -/
abbrev inv : FVec Ideal S256x2048 .f32 :=
  broadcastTo S256x2048 (divf (broadcast S256x1 (Scalar.ofBits (F := Ideal) .f32 0x3F800000#32)) (shapeCast S256x1 (multiReduction .add [1] S256 (wts Q K M) 0x00000000#32 reduces_S256x2048_S256 (.inl rfl) rfl) shapeCasts_S256_S256x1)) broadcasts_S256x1_S256x2048

/-- The probability payload is the weights times the laid-out reciprocals. -/
theorem pay3_eq : k0_pay3 (F := Ideal) Q K M = mulf (wts Q K M) (inv Q K M) := rfl

theorem scores_apply (r : Fin 256) (j : Fin 2048) : scores Q K M (ix2 r j) = bsel Q K M r j := by
  show Scalar.select (IntOp.cmpi .ne (shapeCast S256x2048 M shapeCasts_S1x256x2048_S256x2048 (ix2 r j)) 0#32)
      (Named.named (F := Ideal) κ "neg_big" (φ := .f32) 0xFF333332#32)
      (matmul dot_S256x128_S2048x128_S256x2048_1_1_0_0_n_n none (truncf .bf16 (k0_pay2 Q) bitsLt_bf16_f32)
        (truncf .bf16 (shapeCast S2048x128 K shapeCasts_S1x2048x128_S2048x128) bitsLt_bf16_f32) (constant (F := Ideal) S256x2048 .f32 0x00000000#32) (ix2 r j)) = _
  rw [qk_apply, fill_eq, shapeCast_1ab_ab_apply]
  have hq : ∀ d : Fin 128, (truncf .bf16 (k0_pay2 Q) bitsLt_bf16_f32 : FVec Ideal S256x128 .bf16) (ix2 r d) = Q (ix3 0 r d) :=
    fun d => shapeCast_1ab_ab_apply Q shapeCasts_S1x256x128_S256x128 r d
  have hk : ∀ d : Fin 128, (truncf .bf16 (shapeCast S2048x128 K shapeCasts_S1x2048x128_S2048x128) bitsLt_bf16_f32 : FVec Ideal S2048x128 .bf16) (ix2 j d) = K (ix3 0 j d) :=
    fun d => shapeCast_1ab_ab_apply K shapeCasts_S1x2048x128_S2048x128 j d
  simp only [hq, hk]
  unfold bsel Scalar.select IntOp.cmpi
  by_cases h : M (ix3 0 r j) = 0#32
  · simp [h]
  · have hb : (M (ix3 0 r j) != 0#32) = true := bne_iff_ne.2 h
    rw [hb]
    simp [h]

theorem wts_apply (r : Fin 256) (j : Fin 2048) : wts Q K M (ix2 r j) = rowExp (bsel Q K M r) j := by
  show Ideal.exp (scores Q K M (ix2 r j) - broadcastTo S256x2048 (shapeCast S256x1 (multiReduction .maximumf [1] S256 (scores Q K M) 0xFF800000#32 reduces_S256x2048_S256 (.inl rfl) rfl) shapeCasts_S256_S256x1) broadcasts_S256x1_S256x2048 (ix2 r j)) = _
  rw [rowmax_apply]
  simp only [scores_apply]
  rfl

theorem inv_apply (r : Fin 256) (j : Fin 2048) : inv Q K M (ix2 r j) = Ideal.div 1 (rowSum (bsel Q K M r)) := by
  show broadcastTo S256x2048 (divf (broadcast S256x1 (Scalar.ofBits (F := Ideal) .f32 0x3F800000#32)) (shapeCast S256x1 (multiReduction .add [1] S256 (wts Q K M) 0x00000000#32 reduces_S256x2048_S256 (.inl rfl) rfl) shapeCasts_S256_S256x1)) broadcasts_S256x1_S256x2048 (ix2 r j) = _
  rw [rowinv_apply]
  simp only [wts_apply]
  rfl

/-- The probability block at `(r, j)`: row `r`'s weight at `j` times one over the row's normaliser. -/
theorem pay3_apply (r : Fin 256) (j : Fin 2048) :
    k0_pay3 (F := Ideal) Q K M (ix2 r j) = rowExp (bsel Q K M r) j * Ideal.div 1 (rowSum (bsel Q K M r)) := by
  rw [pay3_eq]
  show wts Q K M (ix2 r j) * inv Q K M (ix2 r j) = _
  rw [wts_apply, inv_apply]

/-- The output block at `(r, d)`: the probabilities of row `r` summed against column `d` of the values, times the query. -/
theorem pay5_apply (r : Fin 256) (d : Fin 128) :
    k0_pay5 (F := Ideal) Q K V M (ix2 r d)
      = (∑ j : Fin 2048, k0_pay3 (F := Ideal) Q K M (ix2 r j) * V (ix3 0 j d)) * Q (ix3 0 r d) := by
  show matmul dot_S256x2048_S2048x128_S256x128_1_0_0_1_n_n none (truncf .bf16 (k0_pay3 (F := Ideal) Q K M) bitsLt_bf16_f32)
      (truncf .bf16 (shapeCast S2048x128 V shapeCasts_S1x2048x128_S2048x128) bitsLt_bf16_f32) (constant (F := Ideal) S256x128 .f32 0x00000000#32) (ix2 r d)
        * (k0_pay2 Q) (ix2 r d) = _
  rw [Cert.LibPlainDot.matmul_zero_apply dot_S256x2048_S2048x128_S256x128_1_0_0_1_n_n rfl none _ _ r d]
  have hv : ∀ j : Fin 2048, (truncf .bf16 (shapeCast S2048x128 V shapeCasts_S1x2048x128_S2048x128) bitsLt_bf16_f32 : FVec Ideal S2048x128 .bf16) (ix2 j d) = V (ix3 0 j d) :=
    fun j => shapeCast_1ab_ab_apply V shapeCasts_S1x2048x128_S2048x128 j d
  have hq : (k0_pay2 Q) (ix2 r d) = Q (ix3 0 r d) := shapeCast_1ab_ab_apply Q shapeCasts_S1x256x128_S256x128 r d
  simp only [hv, hq]
  rfl

end Cert.KernelIdeal.Payload

end
-- ==== Proof.Spec.lean ====
/-
  Masked softmax attention without scaling, as one function of the argument arrays, index by index, on the extended reals.

  For batch-head `b` and query `r`, the masked score of key `j` is `⊥` where `mask b r j` is set and the dot product
  `∑ d, q b r d · k b j d` otherwise; `attn b r j` is the softmax of that row at `j`
  (`exp (s j - max s) / ∑ⱼ exp (s j - max s)`), and `out b r d = (∑ j, attn b r j · v b j d) · q b r d`.
-/
import proofs.«417432_j34437047779814_3_alg».proof.Proof.Softmax
import Idealize.ShloMosaic.Lib.ValueIdx

noncomputable section

namespace Cert.Spec

open Idealize.ShloMosaic Idealize.ShloMosaic.ValueIdx Cert.Softmax

/-- A query, key or value array. -/
abbrev QArr := (⟨3, ![16, 2048, 128]⟩ : Shape).Idx → EReal
/-- The mask: one bit per (batch-head, query, key), set = masked. -/
abbrev MArr := (⟨3, ![16, 2048, 2048]⟩ : Shape).Idx → BitVec 1
/-- The probabilities. -/
abbrev AArr := (⟨3, ![16, 2048, 2048]⟩ : Shape).Idx → EReal

/-- The masked scores of row `(b, r)`. -/
def sel (q k : QArr) (mask : MArr) (b : Fin 16) (r : Fin 2048) (j : Fin 2048) : EReal :=
  if mask (ix3 b r j) = 1#1 then ⊥ else ∑ d : Fin 128, q (ix3 b r d) * k (ix3 b j d)

/-- The attention probabilities. -/
def attn (q k : QArr) (mask : MArr) : AArr := fun i => rowProb (sel q k mask (i 0) (i 1)) (i 2)

/-- The attention output, times the query. -/
def out (q k v : QArr) (mask : MArr) : QArr := fun i =>
  (∑ j : Fin 2048, attn q k mask (ix3 (i 0) (i 1) j) * v (ix3 (i 0) j (i 2))) * q i

end Cert.Spec

end
-- ==== Proof.BlockSpec.lean ====
/-
  One grid point against the specification, stated over plain variables.

  Suppose a block's query rows are rows `ρ r` of batch-head `b` of `q`, its key and value blocks are all of batch-head `b`
  of `k` and `v`, and its mask words are the widened mask bits of rows `ρ r`. Then the block's masked scores are the
  specification's (`bsel = sel`: a widened bit is zero exactly when the bit is clear); where `q` and `k` are real and the
  row has a clear bit, the row has no `⊤` (a score is a real dot product or `⊥`) and an entry above `⊥`, so the kernel's
  weight-times-reciprocal is the softmax (`Softmax.rowExp_mul_inv`); and the output payload, the probabilities summed
  against the values and multiplied by the query, is `Spec.out`.
-/
import proofs.«417432_j34437047779814_3_alg».proof.Proof.Payload
import proofs.«417432_j34437047779814_3_alg».proof.Proof.Spec

noncomputable section

namespace Cert.KernelIdeal.BlockSpec

open Cert.KernelIdeal Cert.KernelIdeal.Gen Cert.KernelIdeal.Payload Idealize.ShloMosaic Idealize.ShloMosaic.ValueIdx Cert.Softmax Cert.Spec

/-! ## The rows of the specification are admissible softmax rows -/

section Rows

variable (q k : QArr) (mask : MArr) (hq : ∀ i, q i ≠ ⊤ ∧ q i ≠ ⊥) (hk : ∀ i, k i ≠ ⊤ ∧ k i ≠ ⊥)
include hq hk

/-- A dot product of a row of `q` with a row of `k` is a real number. -/
theorem score_real (b : Fin 16) (r j : Fin 2048) :
    ∃ x : ℝ, (∑ d : Fin 128, q (ix3 b r d) * k (ix3 b j d)) = (x : EReal) := by
  have eq : ∀ i, q i = ((q i).toReal : EReal) := fun i => (EReal.coe_toReal (hq i).1 (hq i).2).symm
  have ek : ∀ i, k i = ((k i).toReal : EReal) := fun i => (EReal.coe_toReal (hk i).1 (hk i).2).symm
  refine ⟨∑ d : Fin 128, (q (ix3 b r d)).toReal * (k (ix3 b j d)).toReal, ?_⟩
  rw [← dot_coe]
  exact Finset.sum_congr rfl fun d _ => by rw [← eq, ← ek]

theorem sel_ne_top (b : Fin 16) (r j : Fin 2048) : sel q k mask b r j ≠ ⊤ := by
  unfold sel
  split
  · exact bot_ne_top
  · obtain ⟨x, hx⟩ := score_real q k hq hk b r j
    rw [hx]; exact EReal.coe_ne_top x

theorem sel_ne_bot (b : Fin 16) (r j : Fin 2048) (hj : mask (ix3 b r j) = 0#1) : sel q k mask b r j ≠ ⊥ := by
  unfold sel
  rw [if_neg (by rw [hj]; decide)]
  obtain ⟨x, hx⟩ := score_real q k hq hk b r j
  rw [hx]; exact EReal.coe_ne_bot x

end Rows

/-! ## A block whose rows are the arrays' rows -/

/-- A widened mask bit is the zero word exactly when the bit is not set. -/
theorem setWidth_eq_zero_iff (x : BitVec 1) : x.setWidth 32 = 0#32 ↔ ¬ x = 1#1 := by revert x; decide

variable (q k v : QArr) (mask : MArr)
variable (Q : Vec Ideal S1x256x128 .f32) (K V : Vec Ideal S1x2048x128 .f32) (M : Vec Ideal S1x256x2048 .i32)
variable (b : Fin 16) (ρ : Fin 256 → Fin 2048)

/-- The block's masked scores are the specification's. -/
theorem bsel_eq (hQ : ∀ (r : Fin 256) (d : Fin 128), Q (ix3 0 r d) = q (ix3 b (ρ r) d))
    (hK : ∀ (j : Fin 2048) (d : Fin 128), K (ix3 0 j d) = k (ix3 b j d))
    (hM : ∀ (r : Fin 256) (j : Fin 2048), M (ix3 0 r j) = (mask (ix3 b (ρ r) j)).setWidth 32) (r : Fin 256) :
    bsel Q K M r = sel q k mask b (ρ r) := by
  funext j
  unfold bsel sel
  rw [hM]
  simp only [hQ, hK]
  by_cases h : mask (ix3 b (ρ r) j) = 1#1
  · rw [if_pos h, if_neg ((setWidth_eq_zero_iff _).not.2 (not_not.2 h))]
  · rw [if_neg h, if_pos ((setWidth_eq_zero_iff _).2 h)]

/-- The probability payload at `(r, j)` is the specification's probability at row `ρ r` of batch-head `b`. -/
theorem pay3_spec (hq : ∀ i, q i ≠ ⊤ ∧ q i ≠ ⊥) (hk : ∀ i, k i ≠ ⊤ ∧ k i ≠ ⊥)
    (hm : ∀ (b : Fin 16) (r : Fin 2048), ∃ j : Fin 2048, mask (ix3 b r j) = 0#1)
    (hQ : ∀ (r : Fin 256) (d : Fin 128), Q (ix3 0 r d) = q (ix3 b (ρ r) d))
    (hK : ∀ (j : Fin 2048) (d : Fin 128), K (ix3 0 j d) = k (ix3 b j d))
    (hM : ∀ (r : Fin 256) (j : Fin 2048), M (ix3 0 r j) = (mask (ix3 b (ρ r) j)).setWidth 32)
    (r : Fin 256) (j : Fin 2048) :
    k0_pay3 (F := Ideal) Q K M (ix2 r j) = attn q k mask (ix3 b (ρ r) j) := by
  rw [pay3_apply, bsel_eq q k mask Q K M b ρ hQ hK hM r]
  obtain ⟨j₀, hj₀⟩ := hm b (ρ r)
  exact rowExp_mul_inv _ (sel_ne_top q k mask hq hk b (ρ r)) j₀ (sel_ne_bot q k mask hq hk b (ρ r) j₀ hj₀) j

/-- The output payload at `(r, d)` is the specification's output at row `ρ r` of batch-head `b`. -/
theorem pay5_spec (hq : ∀ i, q i ≠ ⊤ ∧ q i ≠ ⊥) (hk : ∀ i, k i ≠ ⊤ ∧ k i ≠ ⊥)
    (hm : ∀ (b : Fin 16) (r : Fin 2048), ∃ j : Fin 2048, mask (ix3 b r j) = 0#1)
    (hQ : ∀ (r : Fin 256) (d : Fin 128), Q (ix3 0 r d) = q (ix3 b (ρ r) d))
    (hK : ∀ (j : Fin 2048) (d : Fin 128), K (ix3 0 j d) = k (ix3 b j d))
    (hV : ∀ (j : Fin 2048) (d : Fin 128), V (ix3 0 j d) = v (ix3 b j d))
    (hM : ∀ (r : Fin 256) (j : Fin 2048), M (ix3 0 r j) = (mask (ix3 b (ρ r) j)).setWidth 32)
    (r : Fin 256) (d : Fin 128) :
    k0_pay5 (F := Ideal) Q K V M (ix2 r d) = out q k v mask (ix3 b (ρ r) d) := by
  rw [pay5_apply]
  simp only [pay3_spec q k mask Q K M b ρ hq hk hm hQ hK hM, hV, hQ]
  rfl

/-- The probability block as stored ([1, 256, 2048]) at a block index: the specification at the row and key under it. -/
theorem pay4_spec (hq : ∀ i, q i ≠ ⊤ ∧ q i ≠ ⊥) (hk : ∀ i, k i ≠ ⊤ ∧ k i ≠ ⊥)
    (hm : ∀ (b : Fin 16) (r : Fin 2048), ∃ j : Fin 2048, mask (ix3 b r j) = 0#1)
    (hQ : ∀ (r : Fin 256) (d : Fin 128), Q (ix3 0 r d) = q (ix3 b (ρ r) d))
    (hK : ∀ (j : Fin 2048) (d : Fin 128), K (ix3 0 j d) = k (ix3 b j d))
    (hM : ∀ (r : Fin 256) (j : Fin 2048), M (ix3 0 r j) = (mask (ix3 b (ρ r) j)).setWidth 32)
    (y : S1x256x2048.Idx) :
    k0_pay4 (F := Ideal) Q K M y = attn q k mask (ix3 b (ρ (y 1)) (y 2)) := by
  obtain ⟨u, r, j, rfl⟩ : ∃ (u : Fin 1) (r : Fin 256) (j : Fin 2048), y = ix3 u r j := ⟨y 0, y 1, y 2, eq_ix3 y⟩
  show shapeCast S1x256x2048 (k0_pay3 (F := Ideal) Q K M) shapeCasts_S256x2048_S1x256x2048 (ix3 u r j) = attn q k mask (ix3 b (ρ r) j)
  refine (shapeCast_ab_1ab_apply (k0_pay3 (F := Ideal) Q K M) shapeCasts_S256x2048_S1x256x2048 u r j).trans ?_
  exact pay3_spec q k mask Q K M b ρ hq hk hm hQ hK hM r j

/-- The output block as stored ([1, 256, 128]) at a block index: the specification at the row and column under it. -/
theorem pay1_spec (hq : ∀ i, q i ≠ ⊤ ∧ q i ≠ ⊥) (hk : ∀ i, k i ≠ ⊤ ∧ k i ≠ ⊥)
    (hm : ∀ (b : Fin 16) (r : Fin 2048), ∃ j : Fin 2048, mask (ix3 b r j) = 0#1)
    (hQ : ∀ (r : Fin 256) (d : Fin 128), Q (ix3 0 r d) = q (ix3 b (ρ r) d))
    (hK : ∀ (j : Fin 2048) (d : Fin 128), K (ix3 0 j d) = k (ix3 b j d))
    (hV : ∀ (j : Fin 2048) (d : Fin 128), V (ix3 0 j d) = v (ix3 b j d))
    (hM : ∀ (r : Fin 256) (j : Fin 2048), M (ix3 0 r j) = (mask (ix3 b (ρ r) j)).setWidth 32)
    (y : S1x256x128.Idx) :
    k0_pay1 (k0_pay5 (F := Ideal) Q K V M) y = out q k v mask (ix3 b (ρ (y 1)) (y 2)) := by
  obtain ⟨u, r, d, rfl⟩ : ∃ (u : Fin 1) (r : Fin 256) (d : Fin 128), y = ix3 u r d := ⟨y 0, y 1, y 2, eq_ix3 y⟩
  show shapeCast S1x256x128 (k0_pay5 (F := Ideal) Q K V M) shapeCasts_S256x128_S1x256x128 (ix3 u r d) = out q k v mask (ix3 b (ρ r) d)
  refine (shapeCast_ab_1ab_apply (k0_pay5 (F := Ideal) Q K V M) shapeCasts_S256x128_S1x256x128 u r d).trans ?_
  exact pay5_spec q k v mask Q K V M b ρ hq hk hm hQ hK hV hM r d

end Cert.KernelIdeal.BlockSpec

end
-- ==== Proof.Blocks.lean ====
/-
  From the blocks to the arrays: after the kernel's run the probability array is `Spec.attn` and the output array is
  `Spec.out` of the argument arrays.

  The grid has a point per (batch-head `b`, query tile `qi`). At that point the query, mask, output and probability
  windows hold block `(b, qi, 0)` of their arrays (rows `256·qi … 256·qi + 255` of batch-head `b`), and the key and
  value windows hold block `(b, 0, 0)`: all of batch-head `b`. The mask window's array is the mask widened to words
  by the one host operation before the call. So each input block read at a block index is the argument array at the
  index under it, the point's two payloads are the specification at the indices under the block
  (`BlockSpec.pay4_spec`, `pay1_spec`), that is, what the point writes back is the specification read through the
  point's block; and the blocks cover both arrays (row `R` lies in tile `R / 256`).
-/
import proofs.«417432_j34437047779814_3_alg».proof.Proof.Gen.KernelIdeal.Value
import proofs.«417432_j34437047779814_3_alg».proof.Proof.BlockSpec
import Idealize.ShloMosaic.Lib.Pipeline.Value
import Idealize.ShloMosaic.Lib.StableHlo.Run

noncomputable section

namespace Cert.KernelIdeal.Blocks

open Cert.KernelIdeal Cert.KernelIdeal.Gen Cert.KernelIdeal.Payload Cert.KernelIdeal.BlockSpec
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The argument arrays on core `c`. -/
abbrev qA (c : Dev nD) : QArr := m ((c : Thread nD τ).loc main_arg0)
abbrev kA (c : Dev nD) : QArr := m ((c : Thread nD τ).loc main_arg1)
abbrev vA (c : Dev nD) : QArr := m ((c : Thread nD τ).loc main_arg2)
abbrev mA (c : Dev nD) : MArr := m ((c : Thread nD τ).loc main_arg3)

/-- The mask window's array when the region is entered: the mask's bits widened to words. -/
theorem V_mask (c : Dev nD) : (V m c main_v0 : S16x2048x2048.Idx → BitVec 32) = fun i => (mA m c i).setWidth 32 := by
  dsimp only [V, hostOps0]
  after_results
  rfl

/-- The printed index maps, decided over the grid: the query, mask and output windows move with the probability
    window; the key and value windows follow its batch-head and stay at block 0 along the keys. -/
theorem idx_facts : ∀ t : Fin cfg0.N,
    win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3) ∧ win0_3.index t (2 : Fin 3) = 0
    ∧ win0_4.index t (0 : Fin 3) = win0_5.index t (0 : Fin 3) ∧ win0_4.index t (1 : Fin 3) = win0_5.index t (1 : Fin 3) ∧ win0_4.index t (2 : Fin 3) = 0
    ∧ win0_5.index t (0 : Fin 3) ≤ 15 ∧ win0_5.index t (1 : Fin 3) ≤ 7 ∧ win0_5.index t (2 : Fin 3) = 0 :=
  (by decide +kernel : ∀ t : Fin grid0.N, _)

/-- Every (batch-head, tile) is some point's block. -/
theorem idx_onto : ∀ (q0 : Fin 16) (q1 : Fin 8), ∃ t : Fin cfg0.N, win0_5.index t = ![q0.val, q1.val, 0] :=
  (by decide +kernel : ∀ (q0 : Fin 16) (q1 : Fin 8), ∃ t : Fin grid0.N, win0_5.index t = ![q0.val, q1.val, 0])

/-- Point `t`'s batch-head. -/
def bh (t : Fin cfg0.N) : Fin 16 := ⟨win0_5.index t (0 : Fin 3), by have := (idx_facts t).2.2.2.2.2.2.2.2.2.2.2.2.2.2.2.1; omega⟩
/-- Row `r` of point `t`'s query tile, as a row of the array. -/
def row (t : Fin cfg0.N) (r : Fin 256) : Fin 2048 :=
  ⟨win0_5.index t (1 : Fin 3) * 256 + r.val, by have := (idx_facts t).2.2.2.2.2.2.2.2.2.2.2.2.2.2.2.2.1; have := r.isLt; omega⟩

/-! ## The input blocks, read at a block index -/

theorem read_q (c : Dev nD) (t : Fin cfg0.N) (r : Fin 256) (d : Fin 128) :
    (iblk m c 0 t : Vec Ideal S1x256x128 .f32) (ix3 0 r d) = qA m c (ix3 (bh t) (row t r) d) := by
  obtain ⟨e00, e01, e02, -⟩ := idx_facts t
  show V m c main_arg0 (((cfg0.win 0).blk t).view.emb (ix3 0 r d)) = _
  refine (congrFun (V_main_arg0 m c) _).trans ?_
  refine congrArg (m ((c : Thread nD τ).loc main_arg0)) (funext fun a => Fin.ext ?_)
  match a with
  | ⟨0, _⟩ => show win0_0.index t (0 : Fin 3) * 1 + 1 * 0 = win0_5.index t (0 : Fin 3); omega
  | ⟨1, _⟩ => show win0_0.index t (1 : Fin 3) * 256 + 1 * r.val = win0_5.index t (1 : Fin 3) * 256 + r.val; omega
  | ⟨2, _⟩ => show win0_0.index t (2 : Fin 3) * 128 + 1 * d.val = d.val; omega

theorem read_k (c : Dev nD) (t : Fin cfg0.N) (j : Fin 2048) (d : Fin 128) :
    (iblk m c 1 t : Vec Ideal S1x2048x128 .f32) (ix3 0 j d) = kA m c (ix3 (bh t) j d) := by
  obtain ⟨-, -, -, e10, e11, e12, -⟩ := idx_facts t
  show V m c main_arg1 (((cfg0.win 1).blk t).view.emb (ix3 0 j d)) = _
  refine (congrFun (V_main_arg1 m c) _).trans ?_
  refine congrArg (m ((c : Thread nD τ).loc main_arg1)) (funext fun a => Fin.ext ?_)
  match a with
  | ⟨0, _⟩ => show win0_1.index t (0 : Fin 3) * 1 + 1 * 0 = win0_5.index t (0 : Fin 3); omega
  | ⟨1, _⟩ => show win0_1.index t (1 : Fin 3) * 2048 + 1 * j.val = j.val; omega
  | ⟨2, _⟩ => show win0_1.index t (2 : Fin 3) * 128 + 1 * d.val = d.val; omega

theorem read_v (c : Dev nD) (t : Fin cfg0.N) (j : Fin 2048) (d : Fin 128) :
    (iblk m c 2 t : Vec Ideal S1x2048x128 .f32) (ix3 0 j d) = vA m c (ix3 (bh t) j d) := by
  obtain ⟨-, -, -, -, -, -, e20, e21, e22, -⟩ := idx_facts t
  show V m c main_arg2 (((cfg0.win 2).blk t).view.emb (ix3 0 j d)) = _
  refine (congrFun (V_main_arg2 m c) _).trans ?_
  refine congrArg (m ((c : Thread nD τ).loc main_arg2)) (funext fun a => Fin.ext ?_)
  match a with
  | ⟨0, _⟩ => show win0_2.index t (0 : Fin 3) * 1 + 1 * 0 = win0_5.index t (0 : Fin 3); omega
  | ⟨1, _⟩ => show win0_2.index t (1 : Fin 3) * 2048 + 1 * j.val = j.val; omega
  | ⟨2, _⟩ => show win0_2.index t (2 : Fin 3) * 128 + 1 * d.val = d.val; omega

theorem read_m (c : Dev nD) (t : Fin cfg0.N) (r : Fin 256) (j : Fin 2048) :
    (iblk m c 3 t : Vec Ideal S1x256x2048 .i32) (ix3 0 r j) = (mA m c (ix3 (bh t) (row t r) j)).setWidth 32 := by
  obtain ⟨-, -, -, -, -, -, -, -, -, e30, e31, e32, -⟩ := idx_facts t
  show V m c main_v0 (((cfg0.win 3).blk t).view.emb (ix3 0 r j)) = _
  refine (congrFun (V_mask m c) _).trans ?_
  show (mA m c (((cfg0.win 3).blk t).view.emb (ix3 0 r j))).setWidth 32 = _
  refine congrArg (fun i => (mA m c i).setWidth 32) (funext fun a => Fin.ext ?_)
  match a with
  | ⟨0, _⟩ => show win0_3.index t (0 : Fin 3) * 1 + 1 * 0 = win0_5.index t (0 : Fin 3); omega
  | ⟨1, _⟩ => show win0_3.index t (1 : Fin 3) * 256 + 1 * r.val = win0_5.index t (1 : Fin 3) * 256 + r.val; omega
  | ⟨2, _⟩ => show win0_3.index t (2 : Fin 3) * 2048 + 1 * j.val = j.val; omega

/-! ## What each point writes back, and the arrays after the run -/

section Post

variable (c : Dev nD) (hq : ∀ i, qA m c i ≠ ⊤ ∧ qA m c i ≠ ⊥) (hk : ∀ i, kA m c i ≠ ⊤ ∧ kA m c i ≠ ⊥)
  (hm : ∀ (b : Fin 16) (r : Fin 2048), ∃ j : Fin 2048, mA m c (ix3 b r j) = 0#1)
include hq hk hm

/-- Point `t` writes back block `t` of the specification's probabilities. -/
theorem flushed5_eq (t : Fin cfg0.N) :
    (dats m 0 c).flushed 5 t = ((cfg0.win 5).blk t).view.read (Elt Ideal) (attn (qA m c) (kA m c) (mA m c)) := by
  obtain ⟨-, -, -, -, -, -, -, -, -, -, -, -, -, -, -, -, -, e52⟩ := idx_facts t
  rw [Cert.KernelIdeal.Value.flushed5]
  unfold out0_5
  rw [View.canon_unit_zero hz]
  simp only [View.ld_unit_zero (S := S1x256x128) hz, View.ld_unit_zero (S := S1x2048x128) hz, View.ld_unit_zero (S := S1x256x2048) hz]
  refine funext fun (y : S1x256x2048.Idx) => ?_
  show k0_pay4 (F := Ideal) (iblk m c 0 t) (iblk m c 1 t) (iblk m c 3 t) y = attn (qA m c) (kA m c) (mA m c) (((cfg0.win 5).blk t).view.emb y)
  refine (pay4_spec (qA m c) (kA m c) (mA m c) (iblk m c 0 t) (iblk m c 1 t) (iblk m c 3 t) (bh t) (row t) hq hk hm
    (read_q m c t) (read_k m c t) (read_m m c t) y).trans ?_
  refine congrArg (attn (qA m c) (kA m c) (mA m c)) (funext fun a => Fin.ext ?_)
  have h0 : (y 0).val < 1 := (y 0).isLt
  match a with
  | ⟨0, _⟩ => show win0_5.index t (0 : Fin 3) = win0_5.index t (0 : Fin 3) * 1 + 1 * (y 0).val; omega
  | ⟨1, _⟩ => show win0_5.index t (1 : Fin 3) * 256 + (y 1).val = win0_5.index t (1 : Fin 3) * 256 + 1 * (y 1).val; omega
  | ⟨2, _⟩ => show (y 2).val = win0_5.index t (2 : Fin 3) * 2048 + 1 * (y 2).val; omega

/-- Point `t` writes back block `t` of the specification's output. -/
theorem flushed4_eq (t : Fin cfg0.N) :
    (dats m 0 c).flushed 4 t = ((cfg0.win 4).blk t).view.read (Elt Ideal) (out (qA m c) (kA m c) (vA m c) (mA m c)) := by
  obtain ⟨-, -, -, -, -, -, -, -, -, -, -, -, e40, e41, e42, -⟩ := idx_facts t
  rw [Cert.KernelIdeal.Value.flushed4]
  unfold out0_4
  rw [View.canon_unit_zero hz]
  simp only [View.ld_unit_zero (S := S1x256x128) hz, View.ld_unit_zero (S := S1x2048x128) hz, View.ld_unit_zero (S := S1x256x2048) hz]
  refine funext fun (y : S1x256x128.Idx) => ?_
  show k0_pay1 (k0_pay5 (F := Ideal) (iblk m c 0 t) (iblk m c 1 t) (iblk m c 2 t) (iblk m c 3 t)) y = out (qA m c) (kA m c) (vA m c) (mA m c) (((cfg0.win 4).blk t).view.emb y)
  refine (pay1_spec (qA m c) (kA m c) (vA m c) (mA m c) (iblk m c 0 t) (iblk m c 1 t) (iblk m c 2 t) (iblk m c 3 t) (bh t) (row t) hq hk hm
    (read_q m c t) (read_k m c t) (read_v m c t) (read_m m c t) y).trans ?_
  refine congrArg (out (qA m c) (kA m c) (vA m c) (mA m c)) (funext fun a => Fin.ext ?_)
  have h0 : (y 0).val < 1 := (y 0).isLt
  match a with
  | ⟨0, _⟩ => show win0_5.index t (0 : Fin 3) = win0_4.index t (0 : Fin 3) * 1 + 1 * (y 0).val; omega
  | ⟨1, _⟩ => show win0_5.index t (1 : Fin 3) * 256 + (y 1).val = win0_4.index t (1 : Fin 3) * 256 + 1 * (y 1).val; omega
  | ⟨2, _⟩ => show (y 2).val = win0_4.index t (2 : Fin 3) * 128 + 1 * (y 2).val; omega

end Post

/-- An index of the probability array is in point `t`'s block iff each coordinate is in the block's range. -/
theorem mem_blk5 (t : Fin cfg0.N) (i : S16x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v1_1).slice (win0_5.rect t)).set ↔ _
  rw [View.set_slice_whole, Rect.mem_set_unit]
  exact Iff.rfl

theorem mem_blk4 (t : Fin cfg0.N) (i : S16x2048x128.Idx) :
    i ∈ ((cfg0.win 4).blk t).view.set ↔ ∀ a : Fin 3, win0_4.index t a * S1x256x128.size a ≤ (i a).val ∧ (i a).val < win0_4.index t a * S1x256x128.size a + S1x256x128.size a := by
  show i ∈ ((View.whole main_v1_0).slice (win0_4.rect t)).set ↔ _
  rw [View.set_slice_whole, Rect.mem_set_unit]
  exact Iff.rfl

/-- Every index of the probability array lies in the block of the point of its batch-head and of its row's tile. -/
theorem cover5 (i : S16x2048x2048.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 2048 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 2048 ≤ (i 2).val ∧ (i 2).val < win0_5.index t (2 : Fin 3) * 2048 + 2048; omega

theorem cover4 (i : S16x2048x128.Idx) : ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 128 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  obtain ⟨-, -, -, -, -, -, -, -, -, -, -, -, e40, e41, e42, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 128 ≤ (i 2).val ∧ (i 2).val < win0_4.index t (2 : Fin 3) * 128 + 128; omega

/-- The run, read: where `q` and `k` are real and every mask row has a clear bit, the two result arrays end at the
    specification of the argument arrays, and the arguments end unchanged. -/
theorem run (hq : ∀ c i, qA m c i ≠ ⊤ ∧ qA m c i ≠ ⊥) (hk : ∀ c i, kA m c i ≠ ⊤ ∧ kA m c i ≠ ⊥)
    (hm : ∀ c (b : Fin 16) (r : Fin 2048), ∃ j : Fin 2048, mA m c (ix3 b r j) = 0#1) :
    θ_run defs (onTc (τ := τ) (main (F := Ideal))) ⟨m, fun _ => 0, ρ⟩ fun r => ∀ c : Dev nD,
      r.2.mem ((c : Thread nD τ).loc main_v1_0) = out (qA m c) (kA m c) (vA m c) (mA m c)
      ∧ r.2.mem ((c : Thread nD τ).loc main_v1_1) = attn (qA m c) (kA m c) (mA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨(h c).1.trans ((dats m 0 c).arrAt_eq_of_cover 4 (out (qA m c) (kA m c) (vA m c) (mA m c))
          (fun t _ => flushed4_eq m c (hq c) (hk c) (hm c) t) cover4),
        (h c).2.1.trans ((dats m 0 c).arrAt_eq_of_cover 5 (attn (qA m c) (kA m c) (mA m c))
          (fun t _ => flushed5_eq m c (hq c) (hk c) (hm c) t) cover5),
        (h c).2.2⟩)
    (Cert.KernelIdeal.Value.run_blocks m ρ)

end Cert.KernelIdeal.Blocks

end
-- ==== Proof.RefSpec.lean ====
/-
  The reference computes the specification: its run's two result terms, read one operation at a time at an index, are
  `Spec.attn` and `Spec.out` of the argument arrays.

  Row by row: the selected scores are `Spec.sel`; the reduce by `max` from `-∞`, joined once more with `-∞`, is the row
  maximum; the exponential of the difference is the row's weight; the reduce by `+` from `0` is the normaliser; the
  quotient is the softmax; the second product sums it against `v` over the keys, and the result is multiplied by `q`.
-/
import proofs.«417432_j34437047779814_3_alg».proof.Proof.Gen.ReferenceIdeal.Read
import proofs.«417432_j34437047779814_3_alg».proof.Proof.Spec
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.Read Idealize.ShloMosaic Idealize.ShloMosaic.ValueIdx Cert.Softmax Cert.Spec

variable (q k v : (⟨S16x2048x128, .f32⟩ : BufTy).Contents (Elt Ideal)) (mask : (⟨S16x2048x2048, .i1⟩ : BufTy).Contents (Elt Ideal))

theorem ofBits_neg_inf : Ideal.ofBits .f32 0xFF800000#32 = ⊥ := by simp [Ideal.ofBits, Ideal.ieee]

/-- The selected scores. -/
theorem v1_apply (b : Fin 16) (r j : Fin 2048) : val_main_v1 (F := Ideal) q k mask (ix3 b r j) = sel q k mask b r j := by
  rw [val_main_v1_apply, val_main_call0_v1_apply, val_main_call0_v0_apply, val_main_cst_apply, val_main_v0_apply]
  have el : ∀ d : Fin 128, lidx_main_v0 (ix3 b r j) d = ix3 b r d := fun d => funext fun a => Fin.ext (by
    match a with | ⟨0, _⟩ => rfl | ⟨1, _⟩ => rfl | ⟨2, _⟩ => rfl)
  have er : ∀ d : Fin 128, ridx_main_v0 (ix3 b r j) d = ix3 b j d := fun d => funext fun a => Fin.ext (by
    match a with | ⟨0, _⟩ => rfl | ⟨1, _⟩ => rfl | ⟨2, _⟩ => rfl)
  simp only [el, er]
  show (if mask (ix3 b r j) = 1#1 then Ideal.ofBits .f32 0xFF800000#32 else _) = _
  rw [ofBits_neg_inf]
  rfl

/-- The row maximum. -/
theorem v4_apply (b : Fin 16) (r : Fin 2048) : val_main_v4 (F := Ideal) q k mask (ix2 b r) = rowMax (sel q k mask b r) := by
  rw [val_main_v4_apply, val_main_v3_apply, val_main_cst_1_apply]
  unfold val_main_v2
  rw [Host.reduce_eq_fold_single FloatOps.maximumf _ _ reducesTo_S16x2048x2048_S16x2048_d2 (by decide) h_S_ (ix2 b r)]
  have hl : ∀ j : Fin 2048, (show S16x2048x2048.Reduces [2] S16x2048 by decide).lift (ix2 b r) j = ix3 b r j := fun j => funext fun a => Fin.ext (by
    match a with | ⟨0, _⟩ => rfl | ⟨1, _⟩ => rfl | ⟨2, _⟩ => rfl)
  show max (Ideal.ofBits .f32 0xFF800000#32) (Finset.univ.fold max (Ideal.ofBits .f32 0xFF800000#32) (fun j : Fin 2048 => val_main_v1 (F := Ideal) q k mask ((show S16x2048x2048.Reduces [2] S16x2048 by decide).lift (ix2 b r) j))) = _
  simp only [hl, v1_apply, ofBits_neg_inf]
  exact max_eq_right bot_le

/-- A weight. -/
theorem v8_apply (b : Fin 16) (r j : Fin 2048) : val_main_v8 (F := Ideal) q k mask (ix3 b r j) = rowExp (sel q k mask b r) j := by
  rw [val_main_v8_apply, val_main_v7_apply, val_main_v6_apply, val_main_v5_apply, v1_apply]
  have e : idx_main_v5 (idx_main_v6 (ix3 b r j)) = ix2 b r := funext fun a => Fin.ext (by
    match a with | ⟨0, _⟩ => rfl | ⟨1, _⟩ => rfl)
  rw [e, v4_apply]
  rfl

/-- The normaliser. -/
theorem v9_apply (b : Fin 16) (r : Fin 2048) : val_main_v9 (F := Ideal) q k mask (ix2 b r) = rowSum (sel q k mask b r) := by
  rw [val_main_v9_apply, val_main_cst_2_apply]
  have e : ∀ j : Fin 2048, idx_main_v9 (ix2 b r) j = ix3 b r j := fun j => funext fun a => Fin.ext (by
    match a with | ⟨0, _⟩ => rfl | ⟨1, _⟩ => rfl | ⟨2, _⟩ => rfl)
  simp only [e, v8_apply]
  show Ideal.ofBits .f32 0x00000000#32 + _ = _
  rw [Ideal.ofBits_zero_f32, zero_add]
  rfl

/-- The probabilities are the specification's. -/
theorem v12_eq : val_main_v12 (F := Ideal) q k mask = attn q k mask := by
  funext i
  obtain ⟨b, r, j, rfl⟩ : ∃ (b : Fin 16) (r j : Fin 2048), i = ix3 b r j := ⟨i 0, i 1, i 2, eq_ix3 i⟩
  rw [val_main_v12_apply, val_main_v11_apply, val_main_v10_apply, v8_apply]
  have e : idx_main_v10 (idx_main_v11 (ix3 b r j)) = ix2 b r := funext fun a => Fin.ext (by
    match a with | ⟨0, _⟩ => rfl | ⟨1, _⟩ => rfl)
  rw [e, v9_apply]
  rfl

/-- The output is the specification's. -/
theorem v14_eq : val_main_v14 (F := Ideal) q k v mask = out q k v mask := by
  funext i
  rw [val_main_v14_apply, val_main_v13_apply, v12_eq]
  have el : ∀ j : Fin 2048, lidx_main_v13 i j = ix3 (i 0) (i 1) j := fun j => funext fun a => Fin.ext (by
    match a with | ⟨0, _⟩ => rfl | ⟨1, _⟩ => rfl | ⟨2, _⟩ => rfl)
  have er : ∀ j : Fin 2048, ridx_main_v13 i j = ix3 (i 0) j (i 2) := fun j => funext fun a => Fin.ext (by
    match a with | ⟨0, _⟩ => rfl | ⟨1, _⟩ => rfl | ⟨2, _⟩ => rfl)
  simp only [el, er]
  rfl

end Cert.ReferenceIdeal.RefSpec

end
-- ==== Proof.PreDecode.lean ====
/-
  The precondition, read back: where it holds every entry of `q` and of `k` is a real number, and every row of the mask
  has a key whose bit is clear.

  The printed predicate is a conjunction of four reductions by `and`. The first three say `|x| < +∞` at every entry of
  `q`, `k`, `v`; on the extended reals `max x (-x) < ⊤` excludes exactly `⊤` and `⊥`. The fourth is, over all rows
  `(b, r)`, the reduction by `or` along the keys of the complemented mask: a fold by `or` from `0` that is `1` met a
  complemented bit `1`, that is, a clear mask bit.
-/
import proofs.«417432_j34437047779814_3_alg».proof.Pre_finite_inputs
import proofs.«417432_j34437047779814_3_alg».proof.Proof.Gen.Pre_finite_inputs
import proofs.«417432_j34437047779814_3_alg».proof.Proof.Softmax
import Idealize.ShloMosaic.Lib.ReduceAll
import Idealize.ShloMosaic.Lib.ValueIdx
import Idealize.ShloMosaic.PureOps.Ideal.Laws
import Idealize.ShloMosaic.PureOps.Reduce

noncomputable section

namespace Cert.PreDecode

open Cert.Pre_finite_inputs Cert.Pre_finite_inputs.Facts Idealize.ShloMosaic Idealize.ShloMosaic.ValueIdx Cert.Softmax

instance : Subsingleton S_.Idx := ⟨fun a b => funext fun d => d.elim0⟩

/-- An extended real whose absolute value is below `+∞` is neither infinity. -/
theorem finite_of_abs_lt (x : EReal)
    (h : FloatOps.cmpf (F := Ideal) (φ := .f32) .olt (FloatOps.hostAbsf x) (Ideal.ofBits .f32 0x7F800000#32) = 1#1) :
    x ≠ ⊤ ∧ x ≠ ⊥ := by
  have hinf : Ideal.ofBits .f32 0x7F800000#32 = ⊤ := by simp [Ideal.ofBits, Ideal.ieee]
  rw [hinf] at h
  change BitVec.ofBool (decide (max x (-x) < (⊤ : EReal))) = 1#1 at h
  have h2 : decide (max x (-x) < (⊤ : EReal)) = true := by
    cases hb : decide (max x (-x) < (⊤ : EReal)) with
    | true => rfl
    | false => rw [hb] at h; exact absurd h (by decide)
  have h' : max x (-x) < (⊤ : EReal) := of_decide_eq_true h2
  constructor
  · rintro rfl; exact absurd h' (by simp)
  · rintro rfl; exact absurd h' (by simp)

/-- What the precondition says of the arrays. -/
theorem decode (q k v : FVec Ideal S16x2048x128 .f32) (mask : IVec S16x2048x2048 1)
    (h : fn (F := Ideal) q k v mask = fun _ => 1#1) :
    (∀ i, q i ≠ ⊤ ∧ q i ≠ ⊥) ∧ (∀ i, k i ≠ ⊤ ∧ k i ≠ ⊥)
      ∧ ∀ (b : Fin 16) (r : Fin 2048), ∃ j : Fin 2048, mask (ix3 b r j) = 0#1 := by
  have h0 := congrFun h ix0
  dsimp only [fn, fn_part1] at h0
  obtain ⟨h13, h16⟩ := IntOp.andi_eq_one.1 h0
  obtain ⟨h8, h12⟩ := IntOp.andi_eq_one.1 h13
  obtain ⟨h3, h7⟩ := IntOp.andi_eq_one.1 h8
  refine ⟨fun i => ?_, fun i => ?_, fun b r => ?_⟩
  · exact finite_of_abs_lt _ (Host.reduce_andi_all _ _ _ _ _ h3 i)
  · exact finite_of_abs_lt _ (Host.reduce_andi_all _ _ _ _ _ h7 i)
  · have e := Host.reduce_andi_all _ _ _ _ _ h16 (ix2 b r)
    rw [Host.reduce_eq_fold_single IntOp.ori _ _ reducesTo_S16x2048x2048_S16x2048_d2 (by decide) h_S_ (ix2 b r)] at e
    obtain ⟨j, -, hj⟩ := exists_of_fold_ori _ _ e
    have hl : (show S16x2048x2048.Reduces [2] S16x2048 by decide).lift (ix2 b r) j = ix3 b r j :=
      funext fun a => Fin.ext (by match a with | ⟨0, _⟩ => rfl | ⟨1, _⟩ => rfl | ⟨2, _⟩ => rfl)
    have hn : ~~~(mask ((show S16x2048x2048.Reduces [2] S16x2048 by decide).lift (ix2 b r) j)) = 1#1 := hj
    rw [hl] at hn
    exact ⟨j, not_eq_one hn⟩

end Cert.PreDecode

end
-- ==== Proof.lean ====
/-
  Masked softmax attention without scaling, `attn = softmax (where (mask, -∞, q kᵀ))` and `out = (attn v) · q`, over
  16 batch-heads, 2048 positions and head dimension 128: a tiled kernel against its whole-array reference, on the
  extended reals, where every entry of `q`, `k`, `v` is finite and every mask row leaves a key unmasked.

  The kernel fills masked scores with a finite word that the certificate's table names `-∞` (the one ledger entry,
  `preserves`), takes each row's maximum, exponentiates the differences, and normalises by ONE reciprocal per row and a
  multiply where the reference divides every entry by the row sum. With `q` and `k` real, each row of masked scores has
  no `+∞` and, by the mask condition, an entry above `-∞`; so the row maximum is real, the unmasked entry's weight is
  positive, the row sum is not zero, and off zero `e · (1 / l) = e / l`. (On a row with every key masked the two differ
  at the ideal values, `0 · (1/0) = 0` against `0 / 0`, and the reference's floating-point value there is not a number:
  that is the row the precondition excludes.) The products are the same sums on both sides.

  The frames are the generated ones; the kernel's arrays after its run are read block by block against the
  specification (`Blocks.run`), the reference's run is read operation by operation (`RefSpec`).
-/
import proofs.«417432_j34437047779814_3_alg».proof.Defs
import proofs.«417432_j34437047779814_3_alg».proof.Proof.Gen.Kernel
import proofs.«417432_j34437047779814_3_alg».proof.Proof.Gen.Kernel.Skeleton
import proofs.«417432_j34437047779814_3_alg».proof.Proof.Gen.Kernel.Launch
import proofs.«417432_j34437047779814_3_alg».proof.Proof.Gen.Kernel.Points
import proofs.«417432_j34437047779814_3_alg».proof.Proof.Gen.Kernel.Frame
import proofs.«417432_j34437047779814_3_alg».proof.Proof.Gen.KernelIdeal
import proofs.«417432_j34437047779814_3_alg».proof.Proof.Gen.KernelIdeal.Skeleton
import proofs.«417432_j34437047779814_3_alg».proof.Proof.Gen.KernelIdeal.Launch
import proofs.«417432_j34437047779814_3_alg».proof.Proof.Gen.KernelIdeal.Points
import proofs.«417432_j34437047779814_3_alg».proof.Proof.Gen.KernelIdeal.Frame
import proofs.«417432_j34437047779814_3_alg».proof.Proof.Gen.ReferenceIdeal
import proofs.«417432_j34437047779814_3_alg».proof.Proof.Gen.Pre_finite_inputs
import proofs.«417432_j34437047779814_3_alg».proof.Proof.Gen.KernelIdeal.Value
import proofs.«417432_j34437047779814_3_alg».proof.Proof.Gen.ReferenceIdeal.Run
import proofs.«417432_j34437047779814_3_alg».proof.Proof.Gen.ReferenceIdeal.Read
import proofs.«417432_j34437047779814_3_alg».proof.Proof.Blocks
import proofs.«417432_j34437047779814_3_alg».proof.Proof.RefSpec
import proofs.«417432_j34437047779814_3_alg».proof.Proof.PreDecode
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ledger's one entry: the table gives the mask fill's name the value `-∞`. -/
theorem preserves : Cert.preserves_Kernel_KernelIdeal :=
  IdealRules.named_const.statement Cert.KernelIdeal.κ "neg_big" .f32 0xFF333332#32 ⊥ rfl

/-- Both programs end with the specification's probabilities and output of arguments that agree. -/
theorem algebraic : Cert.algebraic_KernelIdeal_ReferenceIdeal := by
  intro m ρ m' ρ' hpre hagree
  have hd := fun c => Cert.PreDecode.decode _ _ _ _ (hpre c)
  refine ⟨fun c => Cert.Spec.out (Cert.KernelIdeal.Blocks.qA m c) (Cert.KernelIdeal.Blocks.kA m c) (Cert.KernelIdeal.Blocks.vA m c) (Cert.KernelIdeal.Blocks.mA m c),
    fun c => Cert.Spec.attn (Cert.KernelIdeal.Blocks.qA m c) (Cert.KernelIdeal.Blocks.kA m c) (Cert.KernelIdeal.Blocks.mA m c),
    Cert.KernelIdeal.Blocks.run m ρ (fun c => (hd c).1) (fun c => (hd c).2.1) (fun c => (hd c).2.2), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v14_eq, Cert.ReferenceIdeal.RefSpec.v14_eq,
      (hagree c).1, (hagree c).2.1, (hagree c).2.2.1, (hagree c).2.2.2]
  · rw [(h c).2.1, Cert.ReferenceIdeal.Read.val_main_v12_eq, Cert.ReferenceIdeal.RefSpec.v12_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
